-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048x2048 : Shape := ⟨2, ![2048, 2048]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S2048 .f32) (main_arg10 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x1024 .f32) (main_arg5 : FVec F S2048x2048 .f32) (main_arg6 : FVec F S2048x2048 .f32) (main_arg7 : FVec F S2048x2048 .f32) (main_arg8 : FVec F S2048 .f32) (main_arg9 : FVec F S2048 .f32) (main_arg10 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x2048 .f32) (main_arg2 : FVec F S2048x1024 .f32) (main_arg3 : FVec F S2048x1024 .f32) (main_arg4 : FVec F S2048x1024 .f32) (main_arg5 : FVec F S2048x2048 .f32) (main_arg6 : FVec F S2048x2048 .f32) (main_arg7 : FVec F S2048x2048 .f32) (main_arg8 : FVec F S2048 .f32) (main_arg9 : FVec F S2048 .f32) (main_arg10 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S128x1024 : Shape := ⟨2, ![128, 1024]⟩
abbrev S128x2048 : Shape := ⟨2, ![128, 2048]⟩

abbrev nBuf : Space → Nat
  | .hbm => 31
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S4096x1024, .bf16⟩
  | .hbm, ⟨12, _⟩ => ⟨S4096x2048, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S1024x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .local _ .vmem, ⟨0, _⟩ => ⟨S128x1024, .bf16⟩
  | .local _ .vmem, ⟨1, _⟩ => ⟨S128x1024, .bf16⟩
  | .local _ .vmem, ⟨2, _⟩ => ⟨S128x2048, .bf16⟩
  | .local _ .vmem, ⟨3, _⟩ => ⟨S128x2048, .bf16⟩
  | .local _ .vmem, ⟨4, _⟩ => ⟨S1024x2048, .bf16⟩
  | .local _ .vmem, ⟨5, _⟩ => ⟨S2048x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x1024, .bf16⟩
  | .local _ .vmem, ⟨15, _⟩ => ⟨S128x1024, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S1024x2048, .bf16⟩
  | .local _ .vmem, ⟨23, _⟩ => ⟨S2048x2048, .bf16⟩
  | .local _ .vmem, ⟨24, _⟩ => ⟨S1x2048, .f32⟩
  | .local _ .vmem, ⟨25, _⟩ => ⟨S128x2048, .f32⟩
  | .local _ .vmem, ⟨26, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  transposes_S2048x1024_S1024x2048_1_0 : S2048x1024.Transposes [1, 0] S1024x2048
  transposes_S2048x2048_S2048x2048_1_0 : S2048x2048.Transposes [1, 0] S2048x2048
  shapeCasts_S2048_S1x2048 : S2048.ShapeCasts S1x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .bf16 = 32 ∨ (Rect.block (s := S4096x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S4096x2048.size a
  hwx0_9 : ∀ i : grid0.Coords, EltTy.bits .f32 = 32 ∨ (Rect.block (s := S4096x2048) S128x2048.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .bf16 = 32 ∨ (Rect.block (s := S4096x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .bf16 = 32 ∨ (Rect.block (s := S4096x2048) S128x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S4096x2048.size a
  hwx1_2 : ∀ i : grid1.Coords, EltTy.bits .f32 = 32 ∨ (Rect.block (s := S4096x2048) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x2048.size a
  hwx1_3 : ∀ i : grid1.Coords, EltTy.bits .f32 = 32 ∨ (Rect.block (s := S4096x2048) S128x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S1024x2048.size a
  hwx1_4 : ∀ i : grid1.Coords, EltTy.bits .bf16 = 32 ∨ (Rect.block (s := S1024x2048) S1024x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S4096x2048.size a
  hwx1_7 : ∀ i : grid1.Coords, EltTy.bits .f32 = 32 ∨ (Rect.block (s := S4096x2048) S128x2048.size (cc1_transform_7 i) (hinb1_7 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_0) S128x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_1) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S128x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1024x2048, .f32⟩
  | .hbm, ⟨12, _⟩ => ⟨S4096x2048, .f32⟩
  | .hbm, ⟨13, _⟩ => ⟨S2048x2048, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S1024x2048, .f32⟩
  | .hbm, ⟨28, _⟩ => ⟨S4096x2048, .f32⟩
  | .hbm, ⟨29, _⟩ => ⟨S2048x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1024x2048, .f32⟩
  | .hbm, ⟨44, _⟩ => ⟨S4096x2048, .f32⟩
  | .hbm, ⟨45, _⟩ => ⟨S4096x2048, .f32⟩
  | .hbm, ⟨46, _⟩ => ⟨S2048x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  transposes_S2048x1024_S1024x2048_1_0 : S2048x1024.Transposes [1, 0] S1024x2048
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Payload.lean ====
/-
  The two kernels' arithmetic at one element of a block, at the ideal instance.

  A gate block (128 rows of the batch, all 2048 columns) is the sigmoid of: the rows' inputs against the transposed
  input weights, plus the rows' states against the transposed recurrent weights, plus the bias row. The combine block is
  `z · tanh (x·Wᵀ + (r·h)·Uᵀ + b) + (1 − z) · h` on the same rows. Each product of a [128, K] block with a [K, 2048]
  matrix into the zero accumulator is the plain sum over the K contracted positions; a change of float format is the
  identity; the bias row [1, 2048] broadcast down the rows reads its column.
-/
import proofs.«140620_j49624052138102_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payload

open Cert.KernelIdeal Cert.KernelIdeal.Gen

/-! ## The rows' inputs against the transposed input weights: a [128, 1024] block times a [1024, 2048] matrix -/

/-- The left operand is read on its row axis at the result's row. -/
theorem inputProduct_lhs_row (i : S128x2048.Idx) (c : dot_S128x1024_S1024x2048_S128x2048_1_0_0_1_n_n.contr.Idx) :
    (dot_S128x1024_S1024x2048_S128x2048_1_0_0_1_n_n.lhsIdx i c 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
/-- The left operand is read on its column axis at the contracted position. -/
theorem inputProduct_lhs_contr (i : S128x2048.Idx) (c : dot_S128x1024_S1024x2048_S128x2048_1_0_0_1_n_n.contr.Idx) :
    (dot_S128x1024_S1024x2048_S128x2048_1_0_0_1_n_n.lhsIdx i c 1).val = (c ⟨0, by decide⟩).val :=
  dot_S128x1024_S1024x2048_S128x2048_1_0_0_1_n_n.lhsIdx_val_of_single rfl i c
/-- The right operand is read on its row axis at the contracted position. -/
theorem inputProduct_rhs_contr (i : S128x2048.Idx) (c : dot_S128x1024_S1024x2048_S128x2048_1_0_0_1_n_n.contr.Idx) :
    (dot_S128x1024_S1024x2048_S128x2048_1_0_0_1_n_n.rhsIdx i c 0).val = (c ⟨0, by decide⟩).val :=
  dot_S128x1024_S1024x2048_S128x2048_1_0_0_1_n_n.rhsIdx_val_of_single rfl i c
/-- The right operand is read on its column axis at the result's column. -/
theorem inputProduct_rhs_col (i : S128x2048.Idx) (c : dot_S128x1024_S1024x2048_S128x2048_1_0_0_1_n_n.contr.Idx) :
    (dot_S128x1024_S1024x2048_S128x2048_1_0_0_1_n_n.rhsIdx i c 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- The product into the zero accumulator, at row `p` and column `q`, is the sum over the 1024 contracted positions. -/
theorem inputProduct_apply (lhs : FVec Ideal S128x1024 .bf16) (rhs : FVec Ideal S1024x2048 .bf16) (p : Fin 128) (q : Fin 2048) :
    matmul dot_S128x1024_S1024x2048_S128x2048_1_0_0_1_n_n none lhs rhs (constant (F := Ideal) S128x2048 .f32 0x00000000#32) (ix2 p q)
      = ∑ k : Fin 1024, lhs (ix2 p k) * rhs (ix2 k q) := by
  refine (Ideal.matmul_constant_zero_apply dot_S128x1024_S1024x2048_S128x2048_1_0_0_1_n_n none lhs rhs (ix2 p q)).trans ?_
  rw [← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p q) ((contrEquiv1 dot_S128x1024_S1024x2048_S128x2048_1_0_0_1_n_n 1024 rfl rfl).symm k) = ix2 p k := funext fun a => Fin.ext (by
    match a with
    | ⟨0, _⟩ => exact inputProduct_lhs_row _ _
    | ⟨1, _⟩ => exact (inputProduct_lhs_contr _ _).trans hk)
  have er : dot_S128x1024_S1024x2048_S128x2048_1_0_0_1_n_n.rhsIdx (ix2 p q) ((contrEquiv1 dot_S128x1024_S1024x2048_S128x2048_1_0_0_1_n_n 1024 rfl rfl).symm k) = ix2 k q := funext fun a => Fin.ext (by
    match a with
    | ⟨0, _⟩ => exact (inputProduct_rhs_contr _ _).trans hk
    | ⟨1, _⟩ => exact inputProduct_rhs_col _ _)
  rw [el, er]

/-! ## The rows' states against the transposed recurrent weights: a [128, 2048] block times a [2048, 2048] matrix -/

/-- The left operand is read on its row axis at the result's row. -/
theorem stateProduct_lhs_row (i : S128x2048.Idx) (c : dot_S128x2048_S2048x2048_S128x2048_1_0_0_1_n_n.contr.Idx) :
    (dot_S128x2048_S2048x2048_S128x2048_1_0_0_1_n_n.lhsIdx i c 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
/-- The left operand is read on its column axis at the contracted position. -/
theorem stateProduct_lhs_contr (i : S128x2048.Idx) (c : dot_S128x2048_S2048x2048_S128x2048_1_0_0_1_n_n.contr.Idx) :
    (dot_S128x2048_S2048x2048_S128x2048_1_0_0_1_n_n.lhsIdx i c 1).val = (c ⟨0, by decide⟩).val :=
  dot_S128x2048_S2048x2048_S128x2048_1_0_0_1_n_n.lhsIdx_val_of_single rfl i c
/-- The right operand is read on its row axis at the contracted position. -/
theorem stateProduct_rhs_contr (i : S128x2048.Idx) (c : dot_S128x2048_S2048x2048_S128x2048_1_0_0_1_n_n.contr.Idx) :
    (dot_S128x2048_S2048x2048_S128x2048_1_0_0_1_n_n.rhsIdx i c 0).val = (c ⟨0, by decide⟩).val :=
  dot_S128x2048_S2048x2048_S128x2048_1_0_0_1_n_n.rhsIdx_val_of_single rfl i c
/-- The right operand is read on its column axis at the result's column. -/
theorem stateProduct_rhs_col (i : S128x2048.Idx) (c : dot_S128x2048_S2048x2048_S128x2048_1_0_0_1_n_n.contr.Idx) :
    (dot_S128x2048_S2048x2048_S128x2048_1_0_0_1_n_n.rhsIdx i c 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The product into the zero accumulator, at row `p` and column `q`, is the sum over the 2048 contracted positions. -/
theorem stateProduct_apply (lhs : FVec Ideal S128x2048 .bf16) (rhs : FVec Ideal S2048x2048 .bf16) (p : Fin 128) (q : Fin 2048) :
    matmul dot_S128x2048_S2048x2048_S128x2048_1_0_0_1_n_n none lhs rhs (constant (F := Ideal) S128x2048 .f32 0x00000000#32) (ix2 p q)
      = ∑ k : Fin 2048, lhs (ix2 p k) * rhs (ix2 k q) := by
  refine (Ideal.matmul_constant_zero_apply dot_S128x2048_S2048x2048_S128x2048_1_0_0_1_n_n none lhs rhs (ix2 p q)).trans ?_
  rw [← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun a => Fin.ext (by
    match a with
    | ⟨0, _⟩ => exact stateProduct_lhs_row _ _
    | ⟨1, _⟩ => exact (stateProduct_lhs_contr _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun a => Fin.ext (by
    match a with
    | ⟨0, _⟩ => exact (stateProduct_rhs_contr _ _).trans hk
    | ⟨1, _⟩ => exact stateProduct_rhs_col _ _)
  rw [el, er]

/-! ## The transcendental functions at an index, and the part the three blocks share -/

/-- A hyperbolic tangent at an index is the hyperbolic tangent of the element. -/
theorem tanh_apply {s : Shape} {φ : FTy} (a : FVec Ideal s φ) (i : s.Idx) : tanh a i = Ideal.tanh (a i) := rfl
/-- A sigmoid at an index is the sigmoid of the element. -/
theorem logistic_apply {s : Shape} {φ : FTy} (a : FVec Ideal s φ) (i : s.Idx) : logistic a i = Ideal.logistic (a i) := rfl

/-- The affine part of every block at row `p`, column `q`: the rows `x` against `w`, plus the rows `h` against `u`,
    plus the bias row `b` read at its column `q`. -/
theorem affine_apply (x : FVec Ideal S128x1024 .bf16) (h : FVec Ideal S128x2048 .bf16) (w : FVec Ideal S1024x2048 .bf16)
    (u : FVec Ideal S2048x2048 .bf16) (b : FVec Ideal S1x2048 .f32) (p : Fin 128) (q : Fin 2048) :
    addf (addf (matmul dot_S128x1024_S1024x2048_S128x2048_1_0_0_1_n_n none x w (constant (F := Ideal) S128x2048 .f32 0x00000000#32))
               (matmul dot_S128x2048_S2048x2048_S128x2048_1_0_0_1_n_n none h u (constant (F := Ideal) S128x2048 .f32 0x00000000#32)))
         (broadcastTo S128x2048 b broadcasts_S1x2048_S128x2048) (ix2 p q)
      = (∑ k : Fin 1024, x (ix2 p k) * w (ix2 k q)) + (∑ k : Fin 2048, h (ix2 p k) * u (ix2 k q))
          + b (ix2 (0 : Fin 1) q) := by
  rw [addf_apply, addf_apply, inputProduct_apply, stateProduct_apply, broadcastTo_1b_ab_apply]

/-! ## The three blocks -/

/-- The reset gate's block at row `p`, column `q`. -/
theorem pay3_apply (x0 : Vec Ideal S128x1024 .bf16) (x1 : Vec Ideal S128x2048 .bf16) (w : Vec Ideal S1024x2048 .bf16)
    (u : Vec Ideal S2048x2048 .bf16) (b : Vec Ideal S1x2048 .f32) (p : Fin 128) (q : Fin 2048) :
    k0_pay3 (F := Ideal) x0 x1 w u b (ix2 p q)
      = Ideal.logistic ((∑ k : Fin 1024, x0 (ix2 p k) * w (ix2 k q)) + (∑ k : Fin 2048, x1 (ix2 p k) * u (ix2 k q))
          + b (ix2 (0 : Fin 1) q)) := by
  unfold k0_pay3 k0_pay1 k0_pay2
  rw [shapeCast_self x0, shapeCast_self x1, shapeCast_self w, shapeCast_self u, shapeCast_self b, logistic_apply]
  exact congrArg Ideal.logistic (affine_apply x0 x1 w u b p q)

/-- The update gate's block at row `p`, column `q`. -/
theorem pay4_apply (x0 : Vec Ideal S128x1024 .bf16) (x1 : Vec Ideal S128x2048 .bf16) (w : Vec Ideal S1024x2048 .bf16)
    (u : Vec Ideal S2048x2048 .bf16) (b : Vec Ideal S1x2048 .f32) (p : Fin 128) (q : Fin 2048) :
    k0_pay4 (F := Ideal) x0 x1 w u b (ix2 p q)
      = Ideal.logistic ((∑ k : Fin 1024, x0 (ix2 p k) * w (ix2 k q)) + (∑ k : Fin 2048, x1 (ix2 p k) * u (ix2 k q))
          + b (ix2 (0 : Fin 1) q)) := by
  unfold k0_pay4 k0_pay1 k0_pay2
  rw [shapeCast_self x0, shapeCast_self x1, shapeCast_self w, shapeCast_self u, shapeCast_self b, logistic_apply]
  exact congrArg Ideal.logistic (affine_apply x0 x1 w u b p q)

/-- The new state's block at row `p`, column `q`, from the rows' inputs `x0`, states `x1`, reset gate `r` and
    update gate `z`. -/
theorem pay1_apply (x0 : Vec Ideal S128x1024 .bf16) (x1 : Vec Ideal S128x2048 .bf16) (r z : Vec Ideal S128x2048 .f32)
    (w : Vec Ideal S1024x2048 .bf16) (u : Vec Ideal S2048x2048 .bf16) (b : Vec Ideal S1x2048 .f32)
    (p : Fin 128) (q : Fin 2048) :
    k1_pay1 (F := Ideal) x0 x1 r z w u b (ix2 p q)
      = z (ix2 p q) * Ideal.tanh ((∑ k : Fin 1024, x0 (ix2 p k) * w (ix2 k q))
            + (∑ k : Fin 2048, (r (ix2 p k) * x1 (ix2 p k)) * u (ix2 k q)) + b (ix2 (0 : Fin 1) q))
        + (Ideal.ofBits .f32 0x3F800000#32 - z (ix2 p q)) * x1 (ix2 p q) := by
  unfold k1_pay1
  rw [shapeCast_self x0, shapeCast_self x1, shapeCast_self r, shapeCast_self z, shapeCast_self w, shapeCast_self u,
    shapeCast_self b]
  rw [addf_apply, mulf_apply, mulf_apply, tanh_apply, subf_apply, broadcast_apply, extf_apply, Ideal.ofBits_def,
    affine_apply]
  simp only [truncf_apply, mulf_apply, extf_apply]

end Cert.KernelIdeal.Payload

end
-- ==== Proof.Region0.lean ====
/-
  The first region: the two gates as whole arrays.

  The grid has 32 points; point `t` stages rows `128·t … 128·t + 127` of the inputs `x` and `h` (all their columns),
  the four transposed weight matrices and the two bias rows whole, and writes back rows `128·t … 128·t + 127` of each
  gate. So element `(p, q)` of the block point `t` writes is the gate's formula at row `128·t + p`, column `q`, of the
  arrays as the region finds them, and since every row lies in exactly the block of point `row / 128`, each gate's array
  ends as that formula at every index.
-/
import proofs.«140620_j49624052138102_1_alg».proof.Proof.Gen.KernelIdeal.Frame
import proofs.«140620_j49624052138102_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.Gates

open Cert.KernelIdeal Cert.KernelIdeal.Gen

/-- A gate over the arrays the region stages: inputs `xa`, states `ha`, the TRANSPOSED weights `wT` [1024, 2048] and
    `uT` [2048, 2048], the bias as a row `b2` [1, 2048]. -/
def gateArr (xa : S4096x1024.Idx → EReal) (ha : S4096x2048.Idx → EReal) (wT : S1024x2048.Idx → EReal)
    (uT : S2048x2048.Idx → EReal) (b2 : S1x2048.Idx → EReal) : S4096x2048.Idx → EReal :=
  fun i => Ideal.logistic ((∑ k : Fin 1024, xa (ix2 (i 0) k) * wT (ix2 k (i 1)))
    + (∑ k : Fin 2048, ha (ix2 (i 0) k) * uT (ix2 k (i 1))) + b2 (ix2 (0 : Fin 1) (i 1)))

theorem gateArr_ix2 (xa : S4096x1024.Idx → EReal) (ha : S4096x2048.Idx → EReal) (wT : S1024x2048.Idx → EReal)
    (uT : S2048x2048.Idx → EReal) (b2 : S1x2048.Idx → EReal) (P : Fin 4096) (q : Fin 2048) :
    gateArr xa ha wT uT b2 (ix2 P q) = Ideal.logistic ((∑ k : Fin 1024, xa (ix2 P k) * wT (ix2 k q))
      + (∑ k : Fin 2048, ha (ix2 P k) * uT (ix2 k q)) + b2 (ix2 (0 : Fin 1) q)) := rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 32 points: the row-blocked windows sit at block row `t`, the whole-array windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input block read where it lies in its array -/

theorem read_x (c : Dev nD) (t : Fin cfg0.N) (p : Fin 128) (h : t.val * 128 + p.val < 4096) (k : Fin 1024) :
    iblk0 V c 0 t (ix2 p k) = (V c main_v0 : S4096x1024.Idx → EReal) (ix2 ⟨t.val * 128 + p.val, h⟩ k) := by
  show V c main_v0 (((cfg0.win 0).blk t).view.emb (ix2 p k)) = V c main_v0 _
  refine congrArg _ (funext fun a => Fin.ext ?_)
  obtain ⟨e0, e1, -⟩ := idx_facts t
  match a with
  | ⟨0, _⟩ => show win0_0.index t (0 : Fin 2) * 128 + 1 * p.val = t.val * 128 + p.val; omega
  | ⟨1, _⟩ => show win0_0.index t (1 : Fin 2) * 1024 + 1 * k.val = k.val; omega

theorem read_h (c : Dev nD) (t : Fin cfg0.N) (p : Fin 128) (h : t.val * 128 + p.val < 4096) (k : Fin 2048) :
    iblk0 V c 1 t (ix2 p k) = (V c main_v1 : S4096x2048.Idx → EReal) (ix2 ⟨t.val * 128 + p.val, h⟩ k) := by
  show V c main_v1 (((cfg0.win 1).blk t).view.emb (ix2 p k)) = V c main_v1 _
  refine congrArg _ (funext fun a => Fin.ext ?_)
  obtain ⟨-, -, e0, e1, -⟩ := idx_facts t
  match a with
  | ⟨0, _⟩ => show win0_1.index t (0 : Fin 2) * 128 + 1 * p.val = t.val * 128 + p.val; omega
  | ⟨1, _⟩ => show win0_1.index t (1 : Fin 2) * 2048 + 1 * k.val = k.val; omega

theorem read_w2 (c : Dev nD) (t : Fin cfg0.N) (y : S1024x2048.Idx) :
    iblk0 V c 2 t y = (V c main_v3 : S1024x2048.Idx → EReal) y := by
  show V c main_v3 (((cfg0.win 2).blk t).view.emb y) = V c main_v3 y
  refine congrArg _ (funext fun a => Fin.ext ?_)
  obtain ⟨-, -, -, -, e0, e1, -⟩ := idx_facts t
  match a with
  | ⟨0, _⟩ => show win0_2.index t (0 : Fin 2) * 1024 + 1 * (y 0).val = (y 0).val; omega
  | ⟨1, _⟩ => show win0_2.index t (1 : Fin 2) * 2048 + 1 * (y 1).val = (y 1).val; omega

theorem read_w3 (c : Dev nD) (t : Fin cfg0.N) (y : S2048x2048.Idx) :
    iblk0 V c 3 t y = (V c main_v9 : S2048x2048.Idx → EReal) y := by
  show V c main_v9 (((cfg0.win 3).blk t).view.emb y) = V c main_v9 y
  refine congrArg _ (funext fun a => Fin.ext ?_)
  obtain ⟨-, -, -, -, -, -, e0, e1, -⟩ := idx_facts t
  match a with
  | ⟨0, _⟩ => show win0_3.index t (0 : Fin 2) * 2048 + 1 * (y 0).val = (y 0).val; omega
  | ⟨1, _⟩ => show win0_3.index t (1 : Fin 2) * 2048 + 1 * (y 1).val = (y 1).val; omega

theorem read_w4 (c : Dev nD) (t : Fin cfg0.N) (y : S1024x2048.Idx) :
    iblk0 V c 4 t y = (V c main_v5 : S1024x2048.Idx → EReal) y := by
  show V c main_v5 (((cfg0.win 4).blk t).view.emb y) = V c main_v5 y
  refine congrArg _ (funext fun a => Fin.ext ?_)
  obtain ⟨-, -, -, -, -, -, -, -, e0, e1, -⟩ := idx_facts t
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem read_w5 (c : Dev nD) (t : Fin cfg0.N) (y : S2048x2048.Idx) :
    iblk0 V c 5 t y = (V c main_v11 : S2048x2048.Idx → EReal) y := by
  show V c main_v11 (((cfg0.win 5).blk t).view.emb y) = V c main_v11 y
  refine congrArg _ (funext fun a => Fin.ext ?_)
  obtain ⟨-, -, -, -, -, -, -, -, -, -, e0, e1, -⟩ := idx_facts t
  match a with
  | ⟨0, _⟩ => show win0_5.index t (0 : Fin 2) * 2048 + 1 * (y 0).val = (y 0).val; omega
  | ⟨1, _⟩ => show win0_5.index t (1 : Fin 2) * 2048 + 1 * (y 1).val = (y 1).val; omega

theorem read_w6 (c : Dev nD) (t : Fin cfg0.N) (y : S1x2048.Idx) :
    iblk0 V c 6 t y = (V c main_v14 : S1x2048.Idx → EReal) y := by
  show V c main_v14 (((cfg0.win 6).blk t).view.emb y) = V c main_v14 y
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem read_w7 (c : Dev nD) (t : Fin cfg0.N) (y : S1x2048.Idx) :
    iblk0 V c 7 t y = (V c main_v15 : S1x2048.Idx → EReal) y := by
  show V c main_v15 (((cfg0.win 7).blk t).view.emb y) = V c main_v15 y
  refine congrArg _ (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 2048 + 1 * (y 1).val = (y 1).val; omega

/-! ## What each point writes back -/

/-- Point `t` writes back block `t` of the reset gate of the arrays as the region finds them. -/
theorem flushed8_eq (c : Dev nD) (t : Fin cfg0.N) :
    (dat0 V c).flushed 8 t = ((cfg0.win 8).blk t).view.read (Elt Ideal)
      (gateArr (V c main_v0) (V c main_v1) (V c main_v3) (V c main_v9) (V c main_v14)) := by
  show (cfg0.win 8).cut (grid0.coords t) ((dat0 V c).after 8 t) = _
  rw [after0_8]
  unfold out0_8
  rw [View.canon_unit_zero hz]
  simp only [View.ld_unit_zero (S := S128x1024) hz, View.ld_unit_zero (S := S128x2048) hz,
    View.ld_unit_zero (S := S1024x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht : t.val < 32 := t.isLt
  have hp : p.val < 128 := p.isLt
  have hP : t.val * 128 + p.val < 4096 := by omega
  obtain ⟨-, -, -, -, -, -, -, -, -, -, -, -, -, -, -, -, e0, e1, -⟩ := idx_facts t
  have he : ((cfg0.win 8).blk t).view.emb (ix2 p q) = (ix2 ⟨t.val * 128 + p.val, hP⟩ q : S4096x2048.Idx) :=
    funext fun a => Fin.ext (by
      match a with
      | ⟨0, _⟩ => show win0_8.index t (0 : Fin 2) * 128 + 1 * p.val = t.val * 128 + p.val; omega
      | ⟨1, _⟩ => show win0_8.index t (1 : Fin 2) * 2048 + 1 * q.val = q.val; omega)
  show k0_pay3 (F := Ideal) (iblk0 V c 0 t) (iblk0 V c 1 t) (iblk0 V c 2 t) (iblk0 V c 3 t) (iblk0 V c 6 t) (ix2 p q)
    = gateArr (V c main_v0) (V c main_v1) (V c main_v3) (V c main_v9) (V c main_v14) (((cfg0.win 8).blk t).view.emb (ix2 p q))
  rw [he, gateArr_ix2]
  refine (Payload.pay3_apply _ _ _ _ _ p q).trans ?_
  simp only [read_x V c t p hP, read_h V c t p hP, read_w2 V c t, read_w3 V c t, read_w6 V c t]

/-- Point `t` writes back block `t` of the update gate of the arrays as the region finds them. -/
theorem flushed9_eq (c : Dev nD) (t : Fin cfg0.N) :
    (dat0 V c).flushed 9 t = ((cfg0.win 9).blk t).view.read (Elt Ideal)
      (gateArr (V c main_v0) (V c main_v1) (V c main_v5) (V c main_v11) (V c main_v15)) := by
  show (cfg0.win 9).cut (grid0.coords t) ((dat0 V c).after 9 t) = _
  rw [after0_9]
  unfold out0_9
  rw [View.canon_unit_zero hz]
  simp only [View.ld_unit_zero (S := S128x1024) hz, View.ld_unit_zero (S := S128x2048) hz,
    View.ld_unit_zero (S := S1024x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht : t.val < 32 := t.isLt
  have hp : p.val < 128 := p.isLt
  have hP : t.val * 128 + p.val < 4096 := by omega
  obtain ⟨-, -, -, -, -, -, -, -, -, -, -, -, -, -, -, -, -, -, e0, e1⟩ := idx_facts t
  have he : ((cfg0.win 9).blk t).view.emb (ix2 p q) = (ix2 ⟨t.val * 128 + p.val, hP⟩ q : S4096x2048.Idx) :=
    funext fun a => Fin.ext (by
      match a with
      | ⟨0, _⟩ => show win0_9.index t (0 : Fin 2) * 128 + 1 * p.val = t.val * 128 + p.val; omega
      | ⟨1, _⟩ => show win0_9.index t (1 : Fin 2) * 2048 + 1 * q.val = q.val; omega)
  show k0_pay4 (F := Ideal) (iblk0 V c 0 t) (iblk0 V c 1 t) (iblk0 V c 4 t) (iblk0 V c 5 t) (iblk0 V c 7 t) (ix2 p q)
    = gateArr (V c main_v0) (V c main_v1) (V c main_v5) (V c main_v11) (V c main_v15) (((cfg0.win 9).blk t).view.emb (ix2 p q))
  rw [he, gateArr_ix2]
  refine (Payload.pay4_apply _ _ _ _ _ p q).trans ?_
  simp only [read_x V c t p hP, read_h V c t p hP, read_w4 V c t, read_w5 V c t, read_w7 V c t]

/-! ## The blocks tile the arrays -/

theorem mem_blk8 (t : Fin cfg0.N) (i : S4096x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v17_0).slice (win0_8.rect t)).set ↔ _
  rw [View.set_slice_whole, Rect.mem_set_unit]
  exact Iff.rfl

theorem mem_blk9 (t : Fin cfg0.N) (i : S4096x2048.Idx) :
    i ∈ ((cfg0.win 9).blk t).view.set ↔ ∀ a : Fin 2, win0_9.index t a * S128x2048.size a ≤ (i a).val
      ∧ (i a).val < win0_9.index t a * S128x2048.size a + S128x2048.size a := by
  show i ∈ ((View.whole main_v17_1).slice (win0_9.rect t)).set ↔ _
  rw [View.set_slice_whole, Rect.mem_set_unit]
  exact Iff.rfl

/-- Row `r` of the reset gate's array lies in the block of point `r / 128`. -/
theorem cover8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  have hlt : (i 0).val / 128 < 32 := by omega
  refine ⟨⟨(i 0).val / 128, hlt⟩, flush0_8 _, ?_⟩
  rw [mem_blk8]
  obtain ⟨-, -, -, -, -, -, -, -, -, -, -, -, -, -, -, -, e0, e1, -⟩ := idx_facts ⟨(i 0).val / 128, hlt⟩
  have e0' : win0_8.index ⟨(i 0).val / 128, hlt⟩ (0 : Fin 2) = (i 0).val / 128 := e0
  intro a
  match a with
  | ⟨0, _⟩ =>
    show win0_8.index ⟨(i 0).val / 128, hlt⟩ (0 : Fin 2) * 128 ≤ (i 0).val
      ∧ (i 0).val < win0_8.index ⟨(i 0).val / 128, hlt⟩ (0 : Fin 2) * 128 + 128
    omega
  | ⟨1, _⟩ =>
    show win0_8.index ⟨(i 0).val / 128, hlt⟩ (1 : Fin 2) * 2048 ≤ (i 1).val
      ∧ (i 1).val < win0_8.index ⟨(i 0).val / 128, hlt⟩ (1 : Fin 2) * 2048 + 2048
    omega

/-- Row `r` of the update gate's array lies in the block of point `r / 128`. -/
theorem cover9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  have hlt : (i 0).val / 128 < 32 := by omega
  refine ⟨⟨(i 0).val / 128, hlt⟩, flush0_9 _, ?_⟩
  rw [mem_blk9]
  obtain ⟨-, -, -, -, -, -, -, -, -, -, -, -, -, -, -, -, -, -, e0, e1⟩ := idx_facts ⟨(i 0).val / 128, hlt⟩
  have e0' : win0_9.index ⟨(i 0).val / 128, hlt⟩ (0 : Fin 2) = (i 0).val / 128 := e0
  intro a
  match a with
  | ⟨0, _⟩ =>
    show win0_9.index ⟨(i 0).val / 128, hlt⟩ (0 : Fin 2) * 128 ≤ (i 0).val
      ∧ (i 0).val < win0_9.index ⟨(i 0).val / 128, hlt⟩ (0 : Fin 2) * 128 + 128
    omega
  | ⟨1, _⟩ =>
    show win0_9.index ⟨(i 0).val / 128, hlt⟩ (1 : Fin 2) * 2048 ≤ (i 1).val
      ∧ (i 1).val < win0_9.index ⟨(i 0).val / 128, hlt⟩ (1 : Fin 2) * 2048 + 2048
    omega

/-! ## The two arrays after the region -/

/-- The reset gate's array after the region. -/
theorem final8 (c : Dev nD) : (dat0 V c).arrAt 8 cfg0.N
    = gateArr (V c main_v0) (V c main_v1) (V c main_v3) (V c main_v9) (V c main_v14) :=
  (dat0 V c).arrAt_eq_of_cover 8 _ (fun t _ => flushed8_eq V c t) cover8

/-- The update gate's array after the region. -/
theorem final9 (c : Dev nD) : (dat0 V c).arrAt 9 cfg0.N
    = gateArr (V c main_v0) (V c main_v1) (V c main_v5) (V c main_v11) (V c main_v15) :=
  (dat0 V c).arrAt_eq_of_cover 9 _ (fun t _ => flushed9_eq V c t) cover9

end Cert.KernelIdeal.Gates

end
-- ==== Proof.Region1.lean ====
/-
  The second region: the new state as a whole array.

  Again 32 points; point `t` stages rows `128·t … 128·t + 127` of the inputs `x`, the states `h` and the two gates
  `r` and `z`, the candidate's two transposed weight matrices and its bias row whole, and writes back the same rows of
  the result. Element `(p, q)` of the block point `t` writes is `z · tanh (x·Wᵀ + (r·h)·Uᵀ + b) + (1 − z) · h` at row
  `128·t + p`, column `q`, of the arrays as the region finds them; the blocks tile the result array by rows.
-/
import proofs.«140620_j49624052138102_1_alg».proof.Proof.Gen.KernelIdeal.Frame
import proofs.«140620_j49624052138102_1_alg».proof.Proof.Payload
import Idealize.ShloMosaic.Lib.Pipeline.Value
import Idealize.ShloMosaic.Lib.ValueIdx

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.Combine

open Cert.KernelIdeal Cert.KernelIdeal.Gen

/-- The new state over the arrays the region stages: inputs `xa`, states `ha`, the gates `ra` and `za`, the
    TRANSPOSED candidate weights `wT` [1024, 2048] and `uT` [2048, 2048], the bias as a row `b2` [1, 2048]. -/
def mixArr (xa : S4096x1024.Idx → EReal) (ha ra za : S4096x2048.Idx → EReal) (wT : S1024x2048.Idx → EReal)
    (uT : S2048x2048.Idx → EReal) (b2 : S1x2048.Idx → EReal) : S4096x2048.Idx → EReal :=
  fun i => za (ix2 (i 0) (i 1)) * Ideal.tanh ((∑ k : Fin 1024, xa (ix2 (i 0) k) * wT (ix2 k (i 1)))
      + (∑ k : Fin 2048, (ra (ix2 (i 0) k) * ha (ix2 (i 0) k)) * uT (ix2 k (i 1))) + b2 (ix2 (0 : Fin 1) (i 1)))
    + (Ideal.ofBits .f32 0x3F800000#32 - za (ix2 (i 0) (i 1))) * ha (ix2 (i 0) (i 1))

theorem mixArr_ix2 (xa : S4096x1024.Idx → EReal) (ha ra za : S4096x2048.Idx → EReal) (wT : S1024x2048.Idx → EReal)
    (uT : S2048x2048.Idx → EReal) (b2 : S1x2048.Idx → EReal) (P : Fin 4096) (q : Fin 2048) :
    mixArr xa ha ra za wT uT b2 (ix2 P q) = za (ix2 P q) * Ideal.tanh ((∑ k : Fin 1024, xa (ix2 P k) * wT (ix2 k q))
      + (∑ k : Fin 2048, (ra (ix2 P k) * ha (ix2 P k)) * uT (ix2 k q)) + b2 (ix2 (0 : Fin 1) q))
    + (Ideal.ofBits .f32 0x3F800000#32 - za (ix2 P q)) * ha (ix2 P q) := rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 32 points: the row-blocked windows sit at block row `t`, the whole-array windows at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block read where it lies in its array -/

theorem read_x (c : Dev nD) (t : Fin cfg1.N) (p : Fin 128) (h : t.val * 128 + p.val < 4096) (k : Fin 1024) :
    iblk1 V c 0 t (ix2 p k) = (V c main_v0 : S4096x1024.Idx → EReal) (ix2 ⟨t.val * 128 + p.val, h⟩ k) := by
  show V c main_v0 (((cfg1.win 0).blk t).view.emb (ix2 p k)) = V c main_v0 _
  refine congrArg _ (funext fun a => Fin.ext ?_)
  obtain ⟨e0, e1, -⟩ := idx_facts t
  match a with
  | ⟨0, _⟩ => show win1_0.index t (0 : Fin 2) * 128 + 1 * p.val = t.val * 128 + p.val; omega
  | ⟨1, _⟩ => show win1_0.index t (1 : Fin 2) * 1024 + 1 * k.val = k.val; omega

theorem read_h (c : Dev nD) (t : Fin cfg1.N) (p : Fin 128) (h : t.val * 128 + p.val < 4096) (k : Fin 2048) :
    iblk1 V c 1 t (ix2 p k) = (V c main_v1 : S4096x2048.Idx → EReal) (ix2 ⟨t.val * 128 + p.val, h⟩ k) := by
  show V c main_v1 (((cfg1.win 1).blk t).view.emb (ix2 p k)) = V c main_v1 _
  refine congrArg _ (funext fun a => Fin.ext ?_)
  obtain ⟨-, -, e0, e1, -⟩ := idx_facts t
  match a with
  | ⟨0, _⟩ => show win1_1.index t (0 : Fin 2) * 128 + 1 * p.val = t.val * 128 + p.val; omega
  | ⟨1, _⟩ => show win1_1.index t (1 : Fin 2) * 2048 + 1 * k.val = k.val; omega

theorem read_r (c : Dev nD) (t : Fin cfg1.N) (p : Fin 128) (h : t.val * 128 + p.val < 4096) (k : Fin 2048) :
    iblk1 V c 2 t (ix2 p k) = (V c main_v17_0 : S4096x2048.Idx → EReal) (ix2 ⟨t.val * 128 + p.val, h⟩ k) := by
  show V c main_v17_0 (((cfg1.win 2).blk t).view.emb (ix2 p k)) = V c main_v17_0 _
  refine congrArg _ (funext fun a => Fin.ext ?_)
  obtain ⟨-, -, -, -, e0, e1, -⟩ := idx_facts t
  match a with
  | ⟨0, _⟩ => show win1_2.index t (0 : Fin 2) * 128 + 1 * p.val = t.val * 128 + p.val; omega
  | ⟨1, _⟩ => show win1_2.index t (1 : Fin 2) * 2048 + 1 * k.val = k.val; omega

theorem read_z (c : Dev nD) (t : Fin cfg1.N) (p : Fin 128) (h : t.val * 128 + p.val < 4096) (k : Fin 2048) :
    iblk1 V c 3 t (ix2 p k) = (V c main_v17_1 : S4096x2048.Idx → EReal) (ix2 ⟨t.val * 128 + p.val, h⟩ k) := by
  show V c main_v17_1 (((cfg1.win 3).blk t).view.emb (ix2 p k)) = V c main_v17_1 _
  refine congrArg _ (funext fun a => Fin.ext ?_)
  obtain ⟨-, -, -, -, -, -, e0, e1, -⟩ := idx_facts t
  match a with
  | ⟨0, _⟩ => show win1_3.index t (0 : Fin 2) * 128 + 1 * p.val = t.val * 128 + p.val; omega
  | ⟨1, _⟩ => show win1_3.index t (1 : Fin 2) * 2048 + 1 * k.val = k.val; omega

theorem read_w4 (c : Dev nD) (t : Fin cfg1.N) (y : S1024x2048.Idx) :
    iblk1 V c 4 t y = (V c main_v7 : S1024x2048.Idx → EReal) y := by
  show V c main_v7 (((cfg1.win 4).blk t).view.emb y) = V c main_v7 y
  refine congrArg _ (funext fun a => Fin.ext ?_)
  obtain ⟨-, -, -, -, -, -, -, -, e0, e1, -⟩ := idx_facts t
  match a with
  | ⟨0, _⟩ => show win1_4.index t (0 : Fin 2) * 1024 + 1 * (y 0).val = (y 0).val; omega
  | ⟨1, _⟩ => show win1_4.index t (1 : Fin 2) * 2048 + 1 * (y 1).val = (y 1).val; omega

theorem read_w5 (c : Dev nD) (t : Fin cfg1.N) (y : S2048x2048.Idx) :
    iblk1 V c 5 t y = (V c main_v13 : S2048x2048.Idx → EReal) y := by
  show V c main_v13 (((cfg1.win 5).blk t).view.emb y) = V c main_v13 y
  refine congrArg _ (funext fun a => Fin.ext ?_)
  obtain ⟨-, -, -, -, -, -, -, -, -, -, e0, e1, -⟩ := idx_facts t
  match a with
  | ⟨0, _⟩ => show win1_5.index t (0 : Fin 2) * 2048 + 1 * (y 0).val = (y 0).val; omega
  | ⟨1, _⟩ => show win1_5.index t (1 : Fin 2) * 2048 + 1 * (y 1).val = (y 1).val; omega

theorem read_w6 (c : Dev nD) (t : Fin cfg1.N) (y : S1x2048.Idx) :
    iblk1 V c 6 t y = (V c main_v16 : S1x2048.Idx → EReal) y := by
  show V c main_v16 (((cfg1.win 6).blk t).view.emb y) = V c main_v16 y
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; omega
  | ⟨1, _⟩ => show win1_6.index t (1 : Fin 2) * 2048 + 1 * (y 1).val = (y 1).val; omega

/-! ## What each point writes back -/

/-- Point `t` writes back block `t` of the new state of the arrays as the region finds them. -/
theorem flushed7_eq (c : Dev nD) (t : Fin cfg1.N) :
    (dat1 V c).flushed 7 t = ((cfg1.win 7).blk t).view.read (Elt Ideal)
      (mixArr (V c main_v0) (V c main_v1) (V c main_v17_0) (V c main_v17_1) (V c main_v7) (V c main_v13) (V c main_v16)) := by
  show (cfg1.win 7).cut (grid1.coords t) ((dat1 V c).after 7 t) = _
  rw [after1_7]
  unfold out1_7
  rw [View.canon_unit_zero hz]
  simp only [View.ld_unit_zero (S := S128x1024) hz, View.ld_unit_zero (S := S128x2048) hz,
    View.ld_unit_zero (S := S1024x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  have ht : t.val < 32 := t.isLt
  have hp : p.val < 128 := p.isLt
  have hP : t.val * 128 + p.val < 4096 := by omega
  obtain ⟨-, -, -, -, -, -, -, -, -, -, -, -, -, -, e0, e1⟩ := idx_facts t
  have he : ((cfg1.win 7).blk t).view.emb (ix2 p q) = (ix2 ⟨t.val * 128 + p.val, hP⟩ q : S4096x2048.Idx) :=
    funext fun a => Fin.ext (by
      match a with
      | ⟨0, _⟩ => show win1_7.index t (0 : Fin 2) * 128 + 1 * p.val = t.val * 128 + p.val; omega
      | ⟨1, _⟩ => show win1_7.index t (1 : Fin 2) * 2048 + 1 * q.val = q.val; omega)
  show k1_pay1 (F := Ideal) (iblk1 V c 0 t) (iblk1 V c 1 t) (iblk1 V c 2 t) (iblk1 V c 3 t) (iblk1 V c 4 t) (iblk1 V c 5 t) (iblk1 V c 6 t) (ix2 p q)
    = mixArr (V c main_v0) (V c main_v1) (V c main_v17_0) (V c main_v17_1) (V c main_v7) (V c main_v13) (V c main_v16) (((cfg1.win 7).blk t).view.emb (ix2 p q))
  rw [he, mixArr_ix2]
  refine (Payload.pay1_apply _ _ _ _ _ _ _ p q).trans ?_
  simp only [read_x V c t p hP, read_h V c t p hP, read_r V c t p hP, read_z V c t p hP, read_w4 V c t, read_w5 V c t, read_w6 V c t]

/-! ## The blocks tile the array -/

theorem mem_blk7 (t : Fin cfg1.N) (i : S4096x2048.Idx) :
    i ∈ ((cfg1.win 7).blk t).view.set ↔ ∀ a : Fin 2, win1_7.index t a * S128x2048.size a ≤ (i a).val
      ∧ (i a).val < win1_7.index t a * S128x2048.size a + S128x2048.size a := by
  show i ∈ ((View.whole main_v18).slice (win1_7.rect t)).set ↔ _
  rw [View.set_slice_whole, Rect.mem_set_unit]
  exact Iff.rfl

/-- Row `r` of the result array lies in the block of point `r / 128`. -/
theorem cover7 (i : S4096x2048.Idx) :
    ∃ t : Fin cfg1.N, (cfg1.win 7).flush t = true ∧ i ∈ ((cfg1.win 7).blk t).view.set := by
  have hi0 : (i 0).val < 4096 := (i 0).isLt
  have hi1 : (i 1).val < 2048 := (i 1).isLt
  have hlt : (i 0).val / 128 < 32 := by omega
  refine ⟨⟨(i 0).val / 128, hlt⟩, flush1_7 _, ?_⟩
  rw [mem_blk7]
  obtain ⟨-, -, -, -, -, -, -, -, -, -, -, -, -, -, e0, e1⟩ := idx_facts ⟨(i 0).val / 128, hlt⟩
  have e0' : win1_7.index ⟨(i 0).val / 128, hlt⟩ (0 : Fin 2) = (i 0).val / 128 := e0
  intro a
  match a with
  | ⟨0, _⟩ =>
    show win1_7.index ⟨(i 0).val / 128, hlt⟩ (0 : Fin 2) * 128 ≤ (i 0).val
      ∧ (i 0).val < win1_7.index ⟨(i 0).val / 128, hlt⟩ (0 : Fin 2) * 128 + 128
    omega
  | ⟨1, _⟩ =>
    show win1_7.index ⟨(i 0).val / 128, hlt⟩ (1 : Fin 2) * 2048 ≤ (i 1).val
      ∧ (i 1).val < win1_7.index ⟨(i 0).val / 128, hlt⟩ (1 : Fin 2) * 2048 + 2048
    omega

/-! ## The array after the region -/

/-- The result array after the region. -/
theorem final7 (c : Dev nD) : (dat1 V c).arrAt 7 cfg1.N
    = mixArr (V c main_v0) (V c main_v1) (V c main_v17_0) (V c main_v17_1) (V c main_v7) (V c main_v13) (V c main_v16) :=
  (dat1 V c).arrAt_eq_of_cover 7 _ (fun t _ => flushed7_eq V c t) cover7

end Cert.KernelIdeal.Combine

end
-- ==== Proof.HostVals.lean ====
/-
  The arrays the first region finds, as functions of the arguments.

  Before the first region @main only re-lays its arguments: the inputs `x` and `h` change float format (the identity
  over the extended reals); each weight matrix is transposed, then changes format; each bias [2048] becomes a row
  [1, 2048]. So, at an index: the staged input is the argument; a staged weight at `(k, q)` is the weight at `(q, k)`; a
  staged bias row at `(0, q)` is the bias at `q`.
-/
import proofs.«140620_j49624052138102_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators
open Idealize.ShloMosaic Idealize.ShloMosaic.ValueIdx Idealize.ShloMosaic.TcCoe Idealize.SL.Sem Idealize.ShloMosaic.StableHlo

namespace Cert.KernelIdeal.HostVals

open Cert.KernelIdeal Cert.KernelIdeal.Gen

variable (m : (ℓ : Loc nD τ sig) → Buf (Elt Ideal) ℓ) (ρ : Dev nD → PrngReg)

/-! ## The two inputs -/

theorem x_eq (c : Dev nD) : (V1 m ρ c main_v0 : S4096x1024.Idx → EReal)
    = (m ((c : Thread nD τ).loc main_arg0) : S4096x1024.Idx → EReal) := by
  dsimp only [V1, W1, W0, hostOps0]
  after_results
  rfl

theorem h_eq (c : Dev nD) : (V1 m ρ c main_v1 : S4096x2048.Idx → EReal)
    = (m ((c : Thread nD τ).loc main_arg1) : S4096x2048.Idx → EReal) := by
  dsimp only [V1, W1, W0, hostOps0]
  after_results
  rfl

/-! ## The transposed weights -/

/-- A [2048, 1024] matrix transposed, read at `(k, q)`, is the matrix at `(q, k)`. -/
theorem transposeW_apply (w : S2048x1024.Idx → EReal) (k : Fin 1024) (q : Fin 2048) :
    transpose S1024x2048 [1, 0] w transposes_S2048x1024_S1024x2048_1_0 (ix2 k q) = w (ix2 q k) :=
  transpose_apply [1, 0] w transposes_S2048x1024_S1024x2048_1_0 (ix2 k q) (ix2 q k) (fun b => match b with
    | ⟨0, _⟩ => rfl
    | ⟨1, _⟩ => rfl)

/-- A [2048, 2048] matrix transposed, read at `(k, q)`, is the matrix at `(q, k)`. -/
theorem transposeU_apply (u : S2048x2048.Idx → EReal) (k : Fin 2048) (q : Fin 2048) :
    transpose S2048x2048 [1, 0] u transposes_S2048x2048_S2048x2048_1_0 (ix2 k q) = u (ix2 q k) :=
  transpose_apply [1, 0] u transposes_S2048x2048_S2048x2048_1_0 (ix2 k q) (ix2 q k) (fun b => match b with
    | ⟨0, _⟩ => rfl
    | ⟨1, _⟩ => rfl)

theorem wr_eq (c : Dev nD) : (V1 m ρ c main_v3 : S1024x2048.Idx → EReal)
    = transpose S1024x2048 [1, 0] (m ((c : Thread nD τ).loc main_arg4) : S2048x1024.Idx → EReal) transposes_S2048x1024_S1024x2048_1_0 := by
  dsimp only [V1, W1, W0, hostOps0]
  after_results
  rfl

theorem wz_eq (c : Dev nD) : (V1 m ρ c main_v5 : S1024x2048.Idx → EReal)
    = transpose S1024x2048 [1, 0] (m ((c : Thread nD τ).loc main_arg3) : S2048x1024.Idx → EReal) transposes_S2048x1024_S1024x2048_1_0 := by
  dsimp only [V1, W1, W0, hostOps0]
  after_results
  rfl

theorem wh_eq (c : Dev nD) : (V1 m ρ c main_v7 : S1024x2048.Idx → EReal)
    = transpose S1024x2048 [1, 0] (m ((c : Thread nD τ).loc main_arg2) : S2048x1024.Idx → EReal) transposes_S2048x1024_S1024x2048_1_0 := by
  dsimp only [V1, W1, W0, hostOps0]
  after_results
  rfl

theorem ur_eq (c : Dev nD) : (V1 m ρ c main_v9 : S2048x2048.Idx → EReal)
    = transpose S2048x2048 [1, 0] (m ((c : Thread nD τ).loc main_arg7) : S2048x2048.Idx → EReal) transposes_S2048x2048_S2048x2048_1_0 := by
  dsimp only [V1, W1, W0, hostOps0]
  after_results
  rfl

theorem uz_eq (c : Dev nD) : (V1 m ρ c main_v11 : S2048x2048.Idx → EReal)
    = transpose S2048x2048 [1, 0] (m ((c : Thread nD τ).loc main_arg6) : S2048x2048.Idx → EReal) transposes_S2048x2048_S2048x2048_1_0 := by
  dsimp only [V1, W1, W0, hostOps0]
  after_results
  rfl

theorem uh_eq (c : Dev nD) : (V1 m ρ c main_v13 : S2048x2048.Idx → EReal)
    = transpose S2048x2048 [1, 0] (m ((c : Thread nD τ).loc main_arg5) : S2048x2048.Idx → EReal) transposes_S2048x2048_S2048x2048_1_0 := by
  dsimp only [V1, W1, W0, hostOps0]
  after_results
  rfl

/-! ## The bias rows -/

/-- A vector [2048] reshaped to a row [1, 2048], read at `(0, q)`, is the vector at `q`. -/
theorem row_apply (b : S2048.Idx → EReal) (q : Fin 2048) :
    shapeCast S1x2048 b shapeCasts_S2048_S1x2048 (ix2 (0 : Fin 1) q) = b (ix1 q) := by
  refine (shapeCast_addUnit_apply ![2048] b shapeCasts_S2048_S1x2048 (ix2 (0 : Fin 1) q)).trans ?_
  exact congrArg b (funext fun a => by match a with | ⟨0, _⟩ => rfl)

theorem br_eq (c : Dev nD) : (V1 m ρ c main_v14 : S1x2048.Idx → EReal)
    = shapeCast S1x2048 (m ((c : Thread nD τ).loc main_arg10) : S2048.Idx → EReal) shapeCasts_S2048_S1x2048 := by
  dsimp only [V1, W1, W0, hostOps0]
  after_results
  rfl

theorem bz_eq (c : Dev nD) : (V1 m ρ c main_v15 : S1x2048.Idx → EReal)
    = shapeCast S1x2048 (m ((c : Thread nD τ).loc main_arg9) : S2048.Idx → EReal) shapeCasts_S2048_S1x2048 := by
  dsimp only [V1, W1, W0, hostOps0]
  after_results
  rfl

theorem bh_eq (c : Dev nD) : (V1 m ρ c main_v16 : S1x2048.Idx → EReal)
    = shapeCast S1x2048 (m ((c : Thread nD τ).loc main_arg8) : S2048.Idx → EReal) shapeCasts_S2048_S1x2048 := by
  dsimp only [V1, W1, W0, hostOps0]
  after_results
  rfl

end Cert.KernelIdeal.HostVals

end
-- ==== Proof.Spec.lean ====
/-
  The GRU cell as ONE function of its eleven argument arrays, over the extended reals, index by index.

  With x : [4096, 1024], h : [4096, 2048], input weights W : [2048, 1024], recurrent weights U : [2048, 2048] and biases
  b : [2048], row p and column q:

    pre W U b (p, q)  =  (Σ k < 1024, x(p,k) · W(q,k))  +  (Σ k < 2048, h(p,k) · U(q,k))  +  b(q)
    r = σ(pre Wr Ur br),   z = σ(pre Wz Uz bz),   σ t = 1 / (1 + e^(-t))
    cand (p, q)       =  (Σ k < 1024, x(p,k) · Wh(q,k))  +  (Σ k < 2048, (r(p,k) · h(p,k)) · Uh(q,k))  +  bh(q)
    cell (p, q)       =  z(p,q) · tanh (cand (p,q))  +  (1 − z(p,q)) · h(p,q)

  The grouping of every sum and product is the one both programs compute in, so no law of the extended reals that
  needs finiteness is used anywhere: the two sides are this function, read off each program in turn. The `1` of
  `1 − z` stays the f32 pattern both programs print; the sigmoid's own `1`s are the extended real one.
-/
import Idealize.ShloMosaic.PureOps.Ideal
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.GruCell

/-- The arrays' index sets, by their literal extents. -/
abbrev IxX := (⟨2, ![4096, 1024]⟩ : Shape).Idx
abbrev IxH := (⟨2, ![4096, 2048]⟩ : Shape).Idx
abbrev IxW := (⟨2, ![2048, 1024]⟩ : Shape).Idx
abbrev IxU := (⟨2, ![2048, 2048]⟩ : Shape).Idx
abbrev IxB := (⟨1, ![2048]⟩ : Shape).Idx

/-- A gate's pre-activation at row `p`, column `q`: the input product, plus the recurrent product, plus the bias. -/
def pre (x : IxX → EReal) (h : IxH → EReal) (W : IxW → EReal) (U : IxU → EReal) (b : IxB → EReal)
    (p : Fin 4096) (q : Fin 2048) : EReal :=
  (∑ k : Fin 1024, x (ix2 p k) * W (ix2 q k)) + (∑ k : Fin 2048, h (ix2 p k) * U (ix2 q k)) + b (ix1 q)

/-- A gate: the sigmoid of its pre-activation. -/
def gate (x : IxX → EReal) (h : IxH → EReal) (W : IxW → EReal) (U : IxU → EReal) (b : IxB → EReal)
    (p : Fin 4096) (q : Fin 2048) : EReal :=
  Ideal.logistic (pre x h W U b p q)

/-- The candidate state's pre-activation: as a gate's, with the recurrent operand `r · h` in place of `h`. -/
def cand (x : IxX → EReal) (h : IxH → EReal) (r : Fin 4096 → Fin 2048 → EReal) (W : IxW → EReal) (U : IxU → EReal)
    (b : IxB → EReal) (p : Fin 4096) (q : Fin 2048) : EReal :=
  (∑ k : Fin 1024, x (ix2 p k) * W (ix2 q k)) + (∑ k : Fin 2048, (r p k * h (ix2 p k)) * U (ix2 q k)) + b (ix1 q)

/-- The new state from the two gates: `z · tanh (cand) + (1 − z) · h`. -/
def mix (x : IxX → EReal) (h : IxH → EReal) (r z : Fin 4096 → Fin 2048 → EReal) (Wh : IxW → EReal) (Uh : IxU → EReal)
    (bh : IxB → EReal) (p : Fin 4096) (q : Fin 2048) : EReal :=
  z p q * Ideal.tanh (cand x h r Wh Uh bh p q) + (Ideal.ofBits .f32 0x3F800000#32 - z p q) * h (ix2 p q)

/-- The cell at row `p`, column `q`. -/
def cell (x : IxX → EReal) (h : IxH → EReal) (Wh Wz Wr : IxW → EReal) (Uh Uz Ur : IxU → EReal) (bh bz br : IxB → EReal)
    (p : Fin 4096) (q : Fin 2048) : EReal :=
  mix x h (gate x h Wr Ur br) (gate x h Wz Uz bz) Wh Uh bh p q

/-- The cell as an array of shape [4096, 2048]. -/
def out (x : IxX → EReal) (h : IxH → EReal) (Wh Wz Wr : IxW → EReal) (Uh Uz Ur : IxU → EReal) (bh bz br : IxB → EReal) :
    IxH → EReal :=
  fun i => cell x h Wh Wz Wr Uh Uz Ur bh bz br (i 0) (i 1)

theorem out_ix2 (x : IxX → EReal) (h : IxH → EReal) (Wh Wz Wr : IxW → EReal) (Uh Uz Ur : IxU → EReal)
    (bh bz br : IxB → EReal) (p : Fin 4096) (q : Fin 2048) :
    out x h Wh Wz Wr Uh Uz Ur bh bz br (ix2 p q) = cell x h Wh Wz Wr Uh Uz Ur bh bz br p q := rfl

/-- The sigmoid spelled as the host spells it — one over one plus the exponential of the negation, both ones the
    f32 pattern of 1.0 — is the sigmoid. -/
theorem host_sigmoid (t : EReal) :
    Ideal.div (Ideal.ofBits .f32 0x3F800000#32) (Ideal.ofBits .f32 0x3F800000#32 + Ideal.exp (-t)) = Ideal.logistic t := by
  rw [Ideal.ofBits_one_f32]; rfl

end Cert.GruCell

end
-- ==== Proof.KValue.lean ====
/-
  The kernel computes the cell.

  The result array ends at what the second region's write-backs leave, the new state of the arrays that region finds.
  Of those, the inputs, states, candidate weights and bias row are as the first region found them (that region only
  reads the first two and does not touch the others), and the two gates are what the first region's write-backs leave:
  the gate formula of the arrays IT finds. Those in turn are the arguments re-laid: weights transposed, biases as rows.
  Substituting, a product of a row of `x` or `h` with a column of a transposed weight matrix is the row against the
  weight's row, and the result is the specification at every index.
-/
import proofs.«140620_j49624052138102_1_alg».proof.Proof.Region0
import proofs.«140620_j49624052138102_1_alg».proof.Proof.Region1
import proofs.«140620_j49624052138102_1_alg».proof.Proof.HostVals
import proofs.«140620_j49624052138102_1_alg».proof.Proof.Spec

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.KValue

open Cert.KernelIdeal Cert.KernelIdeal.Gen Cert.KernelIdeal.Gates Cert.KernelIdeal.Combine Cert.KernelIdeal.HostVals

/-- A gate over staged arrays is the gate over the weights and bias they re-lay: the staged input weights at `(k, q)`
    are the weights at `(q, k)`, likewise the recurrent ones, and the staged row at `(0, q)` is the bias at `q`. -/
theorem gate_of (x : S4096x1024.Idx → EReal) (h : S4096x2048.Idx → EReal) (wT : S1024x2048.Idx → EReal)
    (uT : S2048x2048.Idx → EReal) (b2 : S1x2048.Idx → EReal) (W : S2048x1024.Idx → EReal) (U : S2048x2048.Idx → EReal)
    (b : S2048.Idx → EReal) (hw : ∀ (k : Fin 1024) (q : Fin 2048), wT (ix2 k q) = W (ix2 q k))
    (hu : ∀ (k : Fin 2048) (q : Fin 2048), uT (ix2 k q) = U (ix2 q k))
    (hb : ∀ q : Fin 2048, b2 (ix2 (0 : Fin 1) q) = b (ix1 q)) (P : Fin 4096) (q : Fin 2048) :
    gateArr x h wT uT b2 (ix2 P q) = Cert.GruCell.gate x h W U b P q := by
  rw [gateArr_ix2]
  unfold Cert.GruCell.gate Cert.GruCell.pre
  simp only [hw, hu, hb]

/-- The new state over staged arrays is the mix over what they re-lay, the staged gates being the gates. -/
theorem mix_of (x : S4096x1024.Idx → EReal) (h ra za : S4096x2048.Idx → EReal) (wT : S1024x2048.Idx → EReal)
    (uT : S2048x2048.Idx → EReal) (b2 : S1x2048.Idx → EReal) (r z : Fin 4096 → Fin 2048 → EReal)
    (W : S2048x1024.Idx → EReal) (U : S2048x2048.Idx → EReal) (b : S2048.Idx → EReal)
    (hr : ∀ (P : Fin 4096) (k : Fin 2048), ra (ix2 P k) = r P k) (hzz : ∀ (P : Fin 4096) (q : Fin 2048), za (ix2 P q) = z P q)
    (hw : ∀ (k : Fin 1024) (q : Fin 2048), wT (ix2 k q) = W (ix2 q k))
    (hu : ∀ (k : Fin 2048) (q : Fin 2048), uT (ix2 k q) = U (ix2 q k))
    (hb : ∀ q : Fin 2048, b2 (ix2 (0 : Fin 1) q) = b (ix1 q)) (P : Fin 4096) (q : Fin 2048) :
    mixArr x h ra za wT uT b2 (ix2 P q) = Cert.GruCell.mix x h r z W U b P q := by
  rw [mixArr_ix2]
  unfold Cert.GruCell.mix Cert.GruCell.cand
  simp only [hr, hzz, hw, hu, hb]

/-- The staged formulas over transposed weights and bias rows are the specification over the weights and biases. -/
theorem staged_eq_out (x : S4096x1024.Idx → EReal) (h : S4096x2048.Idx → EReal) (Wh Wz Wr : S2048x1024.Idx → EReal)
    (Uh Uz Ur : S2048x2048.Idx → EReal) (bh bz br : S2048.Idx → EReal) :
    mixArr x h
      (gateArr x h (transpose S1024x2048 [1, 0] Wr transposes_S2048x1024_S1024x2048_1_0)
        (transpose S2048x2048 [1, 0] Ur transposes_S2048x2048_S2048x2048_1_0) (shapeCast S1x2048 br shapeCasts_S2048_S1x2048))
      (gateArr x h (transpose S1024x2048 [1, 0] Wz transposes_S2048x1024_S1024x2048_1_0)
        (transpose S2048x2048 [1, 0] Uz transposes_S2048x2048_S2048x2048_1_0) (shapeCast S1x2048 bz shapeCasts_S2048_S1x2048))
      (transpose S1024x2048 [1, 0] Wh transposes_S2048x1024_S1024x2048_1_0)
      (transpose S2048x2048 [1, 0] Uh transposes_S2048x2048_S2048x2048_1_0) (shapeCast S1x2048 bh shapeCasts_S2048_S1x2048)
    = Cert.GruCell.out x h Wh Wz Wr Uh Uz Ur bh bz br := by
  funext i
  obtain ⟨P, q, rfl⟩ : ∃ (P : Fin 4096) (q : Fin 2048), i = ix2 P q := ⟨i 0, i 1, eq_ix2 i⟩
  rw [Cert.GruCell.out_ix2]
  unfold Cert.GruCell.cell
  exact mix_of x h _ _ _ _ _ (Cert.GruCell.gate x h Wr Ur br) (Cert.GruCell.gate x h Wz Uz bz) Wh Uh bh
    (fun P k => gate_of x h _ _ _ Wr Ur br (transposeW_apply Wr) (transposeU_apply Ur) (row_apply br) P k)
    (fun P q => gate_of x h _ _ _ Wz Uz bz (transposeW_apply Wz) (transposeU_apply Uz) (row_apply bz) P q)
    (transposeW_apply Wh) (transposeU_apply Uh) (row_apply bh) P q

variable (m : (ℓ : Loc nD τ sig) → Buf (Elt Ideal) ℓ) (ρ : Dev nD → PrngReg)

/-! ## What the second region finds -/

theorem v2_x (c : Dev nD) : (V2 m ρ c main_v0 : S4096x1024.Idx → EReal) = m ((c : Thread nD τ).loc main_arg0) :=
  ((W2_arr m ρ c 0).trans (((dat0 (V1 m ρ) c).arrAt_in 0 rfl cfg0.N).trans (A_eq0 (V1 m ρ) c 0))).trans (x_eq m ρ c)

theorem v2_h (c : Dev nD) : (V2 m ρ c main_v1 : S4096x2048.Idx → EReal) = m ((c : Thread nD τ).loc main_arg1) :=
  ((W2_arr m ρ c 1).trans (((dat0 (V1 m ρ) c).arrAt_in 1 rfl cfg0.N).trans (A_eq0 (V1 m ρ) c 1))).trans (h_eq m ρ c)

theorem v2_r (c : Dev nD) : (V2 m ρ c main_v17_0 : S4096x2048.Idx → EReal)
    = gateArr (m ((c : Thread nD τ).loc main_arg0)) (m ((c : Thread nD τ).loc main_arg1))
        (transpose S1024x2048 [1, 0] (m ((c : Thread nD τ).loc main_arg4)) transposes_S2048x1024_S1024x2048_1_0)
        (transpose S2048x2048 [1, 0] (m ((c : Thread nD τ).loc main_arg7)) transposes_S2048x2048_S2048x2048_1_0)
        (shapeCast S1x2048 (m ((c : Thread nD τ).loc main_arg10)) shapeCasts_S2048_S1x2048) := by
  refine ((W2_arr m ρ c 8).trans (final8 (V1 m ρ) c)).trans ?_
  rw [x_eq m ρ c, h_eq m ρ c, wr_eq m ρ c, ur_eq m ρ c, br_eq m ρ c]

theorem v2_z (c : Dev nD) : (V2 m ρ c main_v17_1 : S4096x2048.Idx → EReal)
    = gateArr (m ((c : Thread nD τ).loc main_arg0)) (m ((c : Thread nD τ).loc main_arg1))
        (transpose S1024x2048 [1, 0] (m ((c : Thread nD τ).loc main_arg3)) transposes_S2048x1024_S1024x2048_1_0)
        (transpose S2048x2048 [1, 0] (m ((c : Thread nD τ).loc main_arg6)) transposes_S2048x2048_S2048x2048_1_0)
        (shapeCast S1x2048 (m ((c : Thread nD τ).loc main_arg9)) shapeCasts_S2048_S1x2048) := by
  refine ((W2_arr m ρ c 9).trans (final9 (V1 m ρ) c)).trans ?_
  rw [x_eq m ρ c, h_eq m ρ c, wz_eq m ρ c, uz_eq m ρ c, bz_eq m ρ c]

theorem v2_wh (c : Dev nD) : (V2 m ρ c main_v7 : S1024x2048.Idx → EReal)
    = transpose S1024x2048 [1, 0] (m ((c : Thread nD τ).loc main_arg2)) transposes_S2048x1024_S1024x2048_1_0 :=
  (W2_of_ne m ρ c main_v7 (by decide)).trans (wh_eq m ρ c)

theorem v2_uh (c : Dev nD) : (V2 m ρ c main_v13 : S2048x2048.Idx → EReal)
    = transpose S2048x2048 [1, 0] (m ((c : Thread nD τ).loc main_arg5)) transposes_S2048x2048_S2048x2048_1_0 :=
  (W2_of_ne m ρ c main_v13 (by decide)).trans (uh_eq m ρ c)

theorem v2_bh (c : Dev nD) : (V2 m ρ c main_v16 : S1x2048.Idx → EReal)
    = shapeCast S1x2048 (m ((c : Thread nD τ).loc main_arg8)) shapeCasts_S2048_S1x2048 :=
  (W2_of_ne m ρ c main_v16 (by decide)).trans (bh_eq m ρ c)

/-! ## The result -/

/-- The result array after the run is the cell of the eleven arguments. -/
theorem result_eq (c : Dev nD) : (W3 m ρ c (Proc.devRef .tc main_v18) : S4096x2048.Idx → EReal)
    = Cert.GruCell.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine ((W3_arr m ρ c 7).trans (final7 (V2 m ρ) c)).trans ?_
  rw [v2_x m ρ c, v2_h m ρ c, v2_r m ρ c, v2_z m ρ c, v2_wh m ρ c, v2_uh m ρ c, v2_bh m ρ c]
  exact staged_eq_out _ _ _ _ _ _ _ _ _ _ _

end Cert.KernelIdeal.KValue

end
-- ==== Proof.RefValue.lean ====
/-
  The reference computes the cell.

  Its @main is forty-eight whole-array operations: for each gate a transpose of the two weight matrices, the two
  products, their sum, the bias broadcast down the rows, and the sigmoid spelled as one over one plus the exponential of
  the negation; then `r · h`, the candidate's products and bias, `tanh`, and `z · tanh(…) + (1 − z) · h`. Read at row
  `p`, column `q`, a product against a transposed matrix is the sum over `k` of the left operand at `(p, k)` times
  the untransposed matrix at `(q, k)`, a broadcast bias is the bias at `q`, and every other operation is pointwise: so
  each stage is the matching piece of the specification, with the same grouping.
-/
import proofs.«140620_j49624052138102_1_alg».proof.Proof.Gen.ReferenceIdeal.Run
import proofs.«140620_j49624052138102_1_alg».proof.Proof.Gen.ReferenceIdeal.Read
import proofs.«140620_j49624052138102_1_alg».proof.Proof.Spec

noncomputable section

open scoped BigOperators
open Idealize.ShloMosaic Idealize.ShloMosaic.ValueIdx

namespace Cert.ReferenceIdeal.RefValue

open Cert.ReferenceIdeal Cert.ReferenceIdeal.Read

/-! ## Indices by coordinates -/

/-- Two rank-2 indices with the same two coordinates are equal. -/
private theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two rank-1 indices with the same coordinate are equal. -/
private theorem idx1_ext {n : Nat} (i j : (⟨1, ![n]⟩ : Shape).Idx) (h0 : (i 0).val = (j 0).val) : i = j :=
  funext fun a => Fin.ext (by match a with | ⟨0, _⟩ => exact h0)

section Stages

variable (x : (⟨S4096x1024, .f32⟩ : BufTy).Contents (Elt Ideal)) (h : (⟨S4096x2048, .f32⟩ : BufTy).Contents (Elt Ideal))
  (W Wr : (⟨S2048x1024, .f32⟩ : BufTy).Contents (Elt Ideal)) (U Ur : (⟨S2048x2048, .f32⟩ : BufTy).Contents (Elt Ideal))
  (b br : (⟨S2048, .f32⟩ : BufTy).Contents (Elt Ideal)) (p : Fin 4096) (q : Fin 2048)

/-! ## The reset gate: operations %0 to %13 -/

/-- %0, %1: the input product against the transposed weight, the sum over k of x(p,k) times W(q,k). -/
private theorem inProd_r :
    val_main_v1 (F := Ideal) x W (ix2 p q) = ∑ k : Fin 1024, x (ix2 p k) * W (ix2 q k) := by
  rw [val_main_v1_apply]
  refine Finset.sum_congr rfl fun k _ => ?_
  rw [val_main_v0_apply,
    show lidx_main_v1 (ix2 p q) k = ix2 p k from idx2_ext _ _ rfl rfl,
    show idx_main_v0 (ridx_main_v1 (ix2 p q) k) = ix2 q k from idx2_ext _ _ rfl rfl]

/-- %2, %3: the recurrent product against the transposed weight, the sum over k of h(p,k) times U(q,k). -/
private theorem recProd_r :
    val_main_v3 (F := Ideal) h U (ix2 p q) = ∑ k : Fin 2048, h (ix2 p k) * U (ix2 q k) := by
  rw [val_main_v3_apply]
  refine Finset.sum_congr rfl fun k _ => ?_
  rw [val_main_v2_apply,
    show lidx_main_v3 (ix2 p q) k = ix2 p k from idx2_ext _ _ rfl rfl,
    show idx_main_v2 (ridx_main_v3 (ix2 p q) k) = ix2 q k from idx2_ext _ _ rfl rfl]

/-- %5, %6: the bias broadcast down the rows is the bias at the column. -/
private theorem bias_r : val_main_v6 (F := Ideal) b (ix2 p q) = b (ix1 q) := by
  rw [val_main_v6_apply, val_main_v5_apply,
    show idx_main_v5 (idx_main_v6 (ix2 p q)) = ix1 q from idx1_ext _ _ rfl]

/-- %4, %7: the pre-activation. -/
private theorem pre_r :
    val_main_v7 (F := Ideal) x h W U b (ix2 p q) = Cert.GruCell.pre x h W U b p q := by
  rw [val_main_v7_apply, val_main_v4_apply, inProd_r, recProd_r, bias_r]
  simp only [Ideal.addf_def]
  rfl

/-- %8 to %13: one over one plus the exponential of the negated pre-activation is the sigmoid. -/
private theorem gate_r :
    val_main_v13 (F := Ideal) x h W U b (ix2 p q) = Cert.GruCell.gate x h W U b p q := by
  rw [val_main_v13_apply, val_main_v12_apply, val_main_cst_0_apply, val_main_v11_apply, val_main_v10_apply,
    val_main_cst_apply, val_main_v9_apply, val_main_v8_apply, pre_r]
  simp only [Ideal.hostDivf_def, Ideal.addf_def, Ideal.hostUnary_exp_def, Ideal.hostNegf_def, Ideal.negf_def,
    Ideal.ofBits_def]
  exact Cert.GruCell.host_sigmoid _

/-! ## The update gate: operations %14 to %27, the same fourteen on the other weights -/

/-- %14, %15: the input product. -/
private theorem inProd_z :
    val_main_v15 (F := Ideal) x W (ix2 p q) = ∑ k : Fin 1024, x (ix2 p k) * W (ix2 q k) := by
  rw [val_main_v15_apply]
  refine Finset.sum_congr rfl fun k _ => ?_
  rw [val_main_v14_apply,
    show lidx_main_v15 (ix2 p q) k = ix2 p k from idx2_ext _ _ rfl rfl,
    show idx_main_v14 (ridx_main_v15 (ix2 p q) k) = ix2 q k from idx2_ext _ _ rfl rfl]

/-- %16, %17: the recurrent product. -/
private theorem recProd_z :
    val_main_v17 (F := Ideal) h U (ix2 p q) = ∑ k : Fin 2048, h (ix2 p k) * U (ix2 q k) := by
  rw [val_main_v17_apply]
  refine Finset.sum_congr rfl fun k _ => ?_
  rw [val_main_v16_apply,
    show lidx_main_v17 (ix2 p q) k = ix2 p k from idx2_ext _ _ rfl rfl,
    show idx_main_v16 (ridx_main_v17 (ix2 p q) k) = ix2 q k from idx2_ext _ _ rfl rfl]

/-- %19, %20: the bias at the column. -/
private theorem bias_z : val_main_v20 (F := Ideal) b (ix2 p q) = b (ix1 q) := by
  rw [val_main_v20_apply, val_main_v19_apply,
    show idx_main_v19 (idx_main_v20 (ix2 p q)) = ix1 q from idx1_ext _ _ rfl]

/-- %18, %21: the pre-activation. -/
private theorem pre_z :
    val_main_v21 (F := Ideal) x h W U b (ix2 p q) = Cert.GruCell.pre x h W U b p q := by
  rw [val_main_v21_apply, val_main_v18_apply, inProd_z, recProd_z, bias_z]
  simp only [Ideal.addf_def]
  rfl

/-- %22 to %27: the sigmoid. -/
private theorem gate_z :
    val_main_v27 (F := Ideal) x h W U b (ix2 p q) = Cert.GruCell.gate x h W U b p q := by
  rw [val_main_v27_apply, val_main_v26_apply, val_main_cst_2_apply, val_main_v25_apply, val_main_v24_apply,
    val_main_cst_1_apply, val_main_v23_apply, val_main_v22_apply, pre_z]
  simp only [Ideal.hostDivf_def, Ideal.addf_def, Ideal.hostUnary_exp_def, Ideal.hostNegf_def, Ideal.negf_def,
    Ideal.ofBits_def]
  exact Cert.GruCell.host_sigmoid _

/-! ## The candidate: operations %28 to %36 -/

/-- %28, %29: the input product. -/
private theorem inProd_c :
    val_main_v29 (F := Ideal) x W (ix2 p q) = ∑ k : Fin 1024, x (ix2 p k) * W (ix2 q k) := by
  rw [val_main_v29_apply]
  refine Finset.sum_congr rfl fun k _ => ?_
  rw [val_main_v28_apply,
    show lidx_main_v29 (ix2 p q) k = ix2 p k from idx2_ext _ _ rfl rfl,
    show idx_main_v28 (ridx_main_v29 (ix2 p q) k) = ix2 q k from idx2_ext _ _ rfl rfl]

/-- %30, %31, %32: the recurrent product, whose left operand at (p, k) is the reset gate there times h(p,k). -/
private theorem recProd_c :
    val_main_v32 (F := Ideal) x h Wr U Ur br (ix2 p q)
      = ∑ k : Fin 2048, (Cert.GruCell.gate x h Wr Ur br p k * h (ix2 p k)) * U (ix2 q k) := by
  rw [val_main_v32_apply]
  refine Finset.sum_congr rfl fun k _ => ?_
  rw [val_main_v31_apply,
    show lidx_main_v32 (ix2 p q) k = ix2 p k from idx2_ext _ _ rfl rfl,
    show idx_main_v31 (ridx_main_v32 (ix2 p q) k) = ix2 q k from idx2_ext _ _ rfl rfl,
    val_main_v30_apply, gate_r, Ideal.mulf_def]

/-- %34, %35: the bias at the column. -/
private theorem bias_c : val_main_v35 (F := Ideal) b (ix2 p q) = b (ix1 q) := by
  rw [val_main_v35_apply, val_main_v34_apply,
    show idx_main_v34 (idx_main_v35 (ix2 p q)) = ix1 q from idx1_ext _ _ rfl]

/-- %33, %36: the candidate's pre-activation. -/
private theorem cand_eq :
    val_main_v36 (F := Ideal) x h W Wr U Ur b br (ix2 p q)
      = Cert.GruCell.cand x h (Cert.GruCell.gate x h Wr Ur br) W U b p q := by
  rw [val_main_v36_apply, val_main_v33_apply, inProd_c, recProd_c, bias_c]
  simp only [Ideal.addf_def]
  rfl

end Stages

/-! ## The mix: operations %37 to %42 -/

/-- The result at row p, column q is the cell there: the update gate times the hyperbolic tangent of the candidate,
    plus one minus the update gate times h(p,q). -/
private theorem cell_eq (x0 : (⟨S4096x1024, .f32⟩ : BufTy).Contents (Elt Ideal)) (x1 : (⟨S4096x2048, .f32⟩ : BufTy).Contents (Elt Ideal))
    (x2 x3 x4 : (⟨S2048x1024, .f32⟩ : BufTy).Contents (Elt Ideal)) (x5 x6 x7 : (⟨S2048x2048, .f32⟩ : BufTy).Contents (Elt Ideal))
    (x8 x9 x10 : (⟨S2048, .f32⟩ : BufTy).Contents (Elt Ideal)) (p : Fin 4096) (q : Fin 2048) :
    val_main_v42 (F := Ideal) x0 x1 x2 x3 x4 x5 x6 x7 x8 x9 x10 (ix2 p q)
      = Cert.GruCell.cell x0 x1 x2 x3 x4 x5 x6 x7 x8 x9 x10 p q := by
  rw [val_main_v42_apply, val_main_v38_apply, val_main_v37_apply, cand_eq, val_main_v41_apply, val_main_v40_apply,
    val_main_v39_apply, val_main_cst_3_apply, gate_z]
  simp only [Ideal.addf_def, Ideal.mulf_def, Ideal.subf_def, Ideal.hostUnary_tanh_def, Ideal.ofBits_def]
  rfl

/-- The reference's result array is the cell of its eleven arguments. -/
theorem ref_eq (x0 : (⟨S4096x1024, .f32⟩ : BufTy).Contents (Elt Ideal)) (x1 : (⟨S4096x2048, .f32⟩ : BufTy).Contents (Elt Ideal))
    (x2 x3 x4 : (⟨S2048x1024, .f32⟩ : BufTy).Contents (Elt Ideal)) (x5 x6 x7 : (⟨S2048x2048, .f32⟩ : BufTy).Contents (Elt Ideal))
    (x8 x9 x10 : (⟨S2048, .f32⟩ : BufTy).Contents (Elt Ideal)) :
    val_main_v42 (F := Ideal) x0 x1 x2 x3 x4 x5 x6 x7 x8 x9 x10 = Cert.GruCell.out x0 x1 x2 x3 x4 x5 x6 x7 x8 x9 x10 := by
  funext i
  obtain ⟨p, q, rfl⟩ : ∃ (p : Fin 4096) (q : Fin 2048), i = ix2 p q := ⟨i 0, i 1, eq_ix2 i⟩
  rw [Cert.GruCell.out_ix2]
  exact cell_eq x0 x1 x2 x3 x4 x5 x6 x7 x8 x9 x10 p q

end Cert.ReferenceIdeal.RefValue

end
-- ==== Proof.lean ====
/-
  A GRU cell as two Pallas kernels against its jnp reference: equal over the extended reals.

  With inputs x [4096, 1024], states h [4096, 2048], input weights W· [2048, 1024], recurrent weights U· [2048, 2048]
  and biases b· [2048], both programs compute, at row p and column q,

    r = σ(x·Wrᵀ + h·Urᵀ + br),   z = σ(x·Wzᵀ + h·Uzᵀ + bz),   σ t = 1 / (1 + e^(-t)),
    out = z · tanh(x·Whᵀ + (r·h)·Uhᵀ + bh) + (1 − z) · h,

  the kernel in two passes over 32 blocks of 128 rows (the gates first, then the new state from the stored gates) on
  operands re-laid on the host (weights transposed, biases as rows, bf16 formats that are the identity over the extended
  reals), the reference in whole-array operations. Every sum and product is grouped the same way on both sides, the
  kernel's one-operation sigmoid and the reference's quotient spelling are one function, and so are the two tanh: no law
  that needs finite inputs is used, and the precondition is never opened.

  The three frames: the kernel's and its idealization's are their launches (every pipeline's windows staged, the body run
  at each point, the blocks written back), the reference's is its run with the result dropped. The idealization rewrote
  no operation, so there is nothing to preserve. The value claim puts the two runs side by side at one result, the
  specification `Cert.GruCell.out` of the arguments: the kernel's result array read back through its two regions
  (`Cert.KernelIdeal.KValue.result_eq`), the reference's run read one operation at a time
  (`Cert.ReferenceIdeal.RefValue.ref_eq`).
-/
import proofs.«140620_j49624052138102_1_alg».proof.Defs
import proofs.«140620_j49624052138102_1_alg».proof.Proof.Gen.Kernel
import proofs.«140620_j49624052138102_1_alg».proof.Proof.Gen.Kernel.Skeleton
import proofs.«140620_j49624052138102_1_alg».proof.Proof.Gen.Kernel.Launch
import proofs.«140620_j49624052138102_1_alg».proof.Proof.Gen.Kernel.Points
import proofs.«140620_j49624052138102_1_alg».proof.Proof.Gen.Kernel.Frame
import proofs.«140620_j49624052138102_1_alg».proof.Proof.Gen.KernelIdeal
import proofs.«140620_j49624052138102_1_alg».proof.Proof.Gen.KernelIdeal.Skeleton
import proofs.«140620_j49624052138102_1_alg».proof.Proof.Gen.KernelIdeal.Launch
import proofs.«140620_j49624052138102_1_alg».proof.Proof.Gen.KernelIdeal.Points
import proofs.«140620_j49624052138102_1_alg».proof.Proof.Gen.KernelIdeal.Frame
import proofs.«140620_j49624052138102_1_alg».proof.Proof.Gen.ReferenceIdeal
import proofs.«140620_j49624052138102_1_alg».proof.Proof.Gen.ReferenceIdeal.Run
import proofs.«140620_j49624052138102_1_alg».proof.Proof.Gen.ReferenceIdeal.Read
import proofs.«140620_j49624052138102_1_alg».proof.Proof.Gen.Pre_finite_inputs
import proofs.«140620_j49624052138102_1_alg».proof.Proof.KRun
import proofs.«140620_j49624052138102_1_alg».proof.Proof.KValue
import proofs.«140620_j49624052138102_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the cell of the arguments: the kernel's named run with
    its result read back through the two regions, the reference's run read one operation at a time. -/
theorem algebraic : Cert.algebraic_KernelIdeal_ReferenceIdeal := by
  intro m ρ m' ρ' _ hagree
  refine ⟨fun c => Cert.GruCell.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KValue.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
